-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x4096x256 : Shape := ⟨4, ![64, 1, 4096, 256]⟩
abbrev S64x2 : Shape := ⟨2, ![64, 2]⟩
abbrev S_ : Shape := ⟨0, ![]⟩

class Facts : Prop where
  bcast_S_S64x1x4096x256 : S_.BroadcastsInDim S64x1x4096x256 (![] : Fin 0 → Fin S64x1x4096x256.rank)
  reducesTo_S64x1x4096x256_S_d0_1_2_3 : S64x1x4096x256.ReducesTo [0, 1, 2, 3] S_
  h_S_ : 0 < S_.numel

variable [Facts]

def fn {F : FTy → Type} [FloatOps F] (main_arg0 : FVec F S64x1x4096x256 .f32) (main_arg1 : IVec S64x2 32) (main_arg2 : IVec S64x2 32) : IVec S_ 1 :=
  let main_v0 : FVec F S64x1x4096x256 .f32 := Host.absf main_arg0
  let main_cst : FVec F S_ .f32 := constant S_ .f32 0x7F800000#32
  let main_v1 : FVec F S64x1x4096x256 .f32 := broadcastInDim S64x1x4096x256 ![] bcast_S_S64x1x4096x256 main_cst
  let main_v2 : IVec S64x1x4096x256 1 := cmpf .olt main_v0 main_v1
  let main_c : IVec S_ 1 := constantI S_ 1 1#1
  let main_v3 : IVec S_ 1 := (fun x v => Host.reduce IntOp.andi x v reducesTo_S64x1x4096x256_S_d0_1_2_3 h_S_) main_v2 main_c
  main_v3
-- ==== Kernel.lean ====
abbrev S64x1x4096x256 : Shape := ⟨4, ![64, 1, 4096, 256]⟩
abbrev S64x2 : Shape := ⟨2, ![64, 2]⟩
abbrev S64x4096x256 : Shape := ⟨3, ![64, 4096, 256]⟩
abbrev S1x2048x256 : Shape := ⟨3, ![1, 2048, 256]⟩
abbrev S2048x256 : Shape := ⟨2, ![2048, 256]⟩
abbrev S1x1 : Shape := ⟨2, ![1, 1]⟩

abbrev nBuf : Space → Nat
  | .hbm => 4
  | .vmem => 4
  | .smem => 2
  | _ => 0

abbrev bufTy : (tb : Table) → Fin (tcTables nBuf tb) → BufTy
  | .hbm, ⟨0, _⟩ => ⟨S64x1x4096x256, .f32⟩
  | .hbm, ⟨1, _⟩ => ⟨S64x4096x256, .f32⟩
  | .hbm, ⟨2, _⟩ => ⟨S64x4096x256, .f32⟩
  | .hbm, ⟨3, _⟩ => ⟨S64x1x4096x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .smem, ⟨0, _⟩ => ⟨S64x2, .i32⟩
  | .local _ .smem, ⟨1, _⟩ => ⟨S64x2, .i32⟩
  | _, _ => ⟨S64x1x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let v4 : Index := Scalar.indexCast arg0
  let c0 : Index := 0#32
  ![v4.toNat, 0]
def k0_off2 (i : grid0.Coords) : Fin 2 → Nat :=
  let arg0 : BitVec 32 := BitVec.ofNat 32 (i 0).val
  let v8 : Index := Scalar.indexCast arg0
  let c1 : Index := 1#32
  ![v8.toNat, 1]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S64x1x4096x256_S64x4096x256 : S64x1x4096x256.ShapeCasts S64x4096x256
  iota_S2048x256_d0_w32 : S2048x256.Iotas .tc 32 [0]
  numel1_S1x1 : S1x1.numel = 1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  shapeCasts_S64x4096x256_S64x1x4096x256 : S64x4096x256.ShapeCasts S64x1x4096x256
  hrank0 : 0 < grid0.rank
  k0_off1_inb : ∀ i : grid0.Coords, ∀ a, (k0_off1 i) a + S1x1.size a ≤ S64x2.size a
  k0_off2_inb : ∀ i : grid0.Coords, ∀ a, (k0_off2 i) a + S1x1.size a ≤ S64x2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S64x4096x256.size a
  hwx0_0 : ∀ i : grid0.Coords, EltTy.bits .f32 = 32 ∨ (Rect.block (s := S64x4096x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S64x4096x256.size a
  hwx0_1 : ∀ i : grid0.Coords, EltTy.bits .f32 = 32 ∨ (Rect.block (s := S64x4096x256) S1x2048x256.size (cc0_transform_1 i) (hinb0_1 i)).WholeWords (EltTy.packing .f32)

variable [Facts₀]

abbrev spec0_0 : Pipeline.WinSpec sig grid0.rank :=
  Pipeline.WinSpec.ofSpec (Memref.whole main_v0) S1x2048x256.size reads0_0 false false 2 stage0_0 sem0_0 nbuf0_0 hstage0_0

abbrev spec0_1 : Pipeline.WinSpec sig grid0.rank :=
  Pipeline.WinSpec.ofSpec (Memref.whole main_v1) S1x2048x256.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S64x1x4096x256 : Shape := ⟨4, ![64, 1, 4096, 256]⟩
abbrev S64x2 : Shape := ⟨2, ![64, 2]⟩
abbrev S4096 : Shape := ⟨1, ![4096]⟩
abbrev S1x1x4096 : Shape := ⟨3, ![1, 1, 4096]⟩
abbrev S64x2x1 : Shape := ⟨3, ![64, 2, 1]⟩
abbrev S64x2x4096 : Shape := ⟨3, ![64, 2, 4096]⟩
abbrev S_ : Shape := ⟨0, ![]⟩
abbrev S64x4096 : Shape := ⟨2, ![64, 4096]⟩
abbrev S64x1x4096x1 : Shape := ⟨4, ![64, 1, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S64x1x4096x256, .f32⟩
  | .hbm, ⟨1, _⟩ => ⟨S64x2, .i32⟩
  | .hbm, ⟨2, _⟩ => ⟨S64x2, .i32⟩
  | .hbm, ⟨3, _⟩ => ⟨S4096, .i32⟩
  | .hbm, ⟨4, _⟩ => ⟨S1x1x4096, .i32⟩
  | .hbm, ⟨5, _⟩ => ⟨S64x2x1, .i32⟩
  | .hbm, ⟨6, _⟩ => ⟨S64x2x4096, .i32⟩
  | .hbm, ⟨7, _⟩ => ⟨S64x2x4096, .i32⟩
  | .hbm, ⟨8, _⟩ => ⟨S64x2x4096, .i1⟩
  | .hbm, ⟨9, _⟩ => ⟨S1x1x4096, .i32⟩
  | .hbm, ⟨10, _⟩ => ⟨S64x2, .i32⟩
  | .hbm, ⟨11, _⟩ => ⟨S64x2x1, .i32⟩
  | .hbm, ⟨12, _⟩ => ⟨S64x2x4096, .i32⟩
  | .hbm, ⟨13, _⟩ => ⟨S64x2x4096, .i32⟩
  | .hbm, ⟨14, _⟩ => ⟨S64x2x4096, .i1⟩
  | .hbm, ⟨15, _⟩ => ⟨S64x2x4096, .i1⟩
  | .hbm, ⟨16, _⟩ => ⟨S_, .i1⟩
  | .hbm, ⟨17, _⟩ => ⟨S64x4096, .i1⟩
  | .hbm, ⟨18, _⟩ => ⟨S64x4096, .i1⟩
  | .hbm, ⟨19, _⟩ => ⟨S64x4096, .f32⟩
  | .hbm, ⟨20, _⟩ => ⟨S64x1x4096x1, .f32⟩
  | .hbm, ⟨21, _⟩ => ⟨S64x1x4096x256, .f32⟩
  | .hbm, ⟨22, _⟩ => ⟨S64x1x4096x256, .f32⟩
  | _, _ => ⟨S64x1x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S64x2_S64x2x1_0_1 : S64x2.BroadcastsInDim S64x2x1 (![0, 1] : Fin 2 → Fin S64x2x1.rank)
  bcast_S1x1x4096_S64x2x4096_0_1_2 : S1x1x4096.BroadcastsInDim S64x2x4096 (![0, 1, 2] : Fin 3 → Fin S64x2x4096.rank)
  bcast_S64x2x1_S64x2x4096_0_1_2 : S64x2x1.BroadcastsInDim S64x2x4096 (![0, 1, 2] : Fin 3 → Fin S64x2x4096.rank)
  reducesTo_S64x2x4096_S64x4096_d1 : S64x2x4096.ReducesTo [1] S64x4096
  h_S_ : 0 < S_.numel
  bcast_S64x4096_S64x1x4096x1_0_2 : S64x4096.BroadcastsInDim S64x1x4096x1 (![0, 2] : Fin 2 → Fin S64x1x4096x1.rank)
  bcast_S64x1x4096x1_S64x1x4096x256_0_1_2_3 : S64x1x4096x1.BroadcastsInDim S64x1x4096x256 (![0, 1, 2, 3] : Fin 4 → Fin S64x1x4096x256.rank)

variable [Facts₀]

class Facts : Prop extends Facts₀ where

variable [Facts]
-- ==== Proof.Spec.lean ====
/-
  The function both programs compute: time-stripe masking of `x : f32[64, 1, 4096, 256]`.
  Batch row `b` carries two stripes `s = 0, 1`, each the half-open interval `[bgn b s, bgn b s + dist b s)` of time
  positions, read as SIGNED 32-bit words (the sum is the wrapping machine sum, the same word on both sides). A position
  `t` of row `b` is dropped when it lies in either stripe; the result is `x` times `0` at a dropped position and
  times `1` elsewhere, the same factor for every frequency bin `f`.
  No law of the extended reals is needed beyond the two constants `0` and `1`: both sides form the same product
  `x · keep`, so the finiteness of `x` is never used.
-/
import Idealize.ShloMosaic.PureOps.Ideal
import Idealize.ShloMosaic.PureOps.Ideal.Laws
import Idealize.ShloMosaic.Lib.IdealHost
import Idealize.ShloMosaic.Lib.ValueIdx

noncomputable section

namespace Cert.DropStripes

open Idealize.ShloMosaic Idealize.ShloMosaic.ValueIdx

/-- The data array's shape `[batch, channel, time, frequency]` and the stripe tables' `[batch, stripe]`. -/
abbrev SX : Shape := ⟨4, ![64, 1, 4096, 256]⟩
abbrev ST : Shape := ⟨2, ![64, 2]⟩

/-- Position word `p` lies in stripe `s` of row `b`: `bgn ≤ p` and `p < bgn + dist`, signed, as one bit. -/
def inStripe (bgn dist : IVec ST 32) (b : Fin 64) (s : Fin 2) (p : BitVec 32) : BitVec 1 :=
  IntOp.andi (IntOp.cmpi .sge p (bgn (ix2 b s)))
    (IntOp.cmpi .slt p (IntOp.addi (bgn (ix2 b s)) (dist (ix2 b s))))

/-- Position word `p` of row `b` is dropped: it lies in stripe 0 or in stripe 1. -/
def dropped (bgn dist : IVec ST 32) (b : Fin 64) (p : BitVec 32) : BitVec 1 :=
  IntOp.ori (inStripe bgn dist b 0 p) (inStripe bgn dist b 1 p)

/-- The factor a position is multiplied by: `0` when dropped, `1` when kept. -/
def keep (bgn dist : IVec ST 32) (b : Fin 64) (p : BitVec 32) : EReal :=
  if dropped bgn dist b p = 1 then 0 else 1

/-- THE RESULT: `x[b, 0, t, f] · keep(b, t)`, the time coordinate read as a 32-bit word. -/
def masked (x : FVec Ideal SX .f32) (bgn dist : IVec ST 32) : FVec Ideal SX .f32 :=
  fun j => x j * keep bgn dist (j 0) (BitVec.ofNat 32 (j 2).val)

/-- The kernel's factor, a select between the two float constants on the drop bit, is `keep`. -/
theorem select_consts (d : BitVec 1) :
    Scalar.select d (Ideal.ofBits .f32 0x00000000#32) (Ideal.ofBits .f32 0x3F800000#32)
      = (if d = 1 then (0 : EReal) else 1) := by
  unfold Scalar.select
  rw [Ideal.ofBits_zero_f32, Ideal.ofBits_one_f32]

/-- The reference's factor, the complement of the drop bit read as an unsigned integer, is `keep`. -/
theorem uitofp_not (d : BitVec 1) :
    (((~~~d).toNat : ℝ) : EReal) = (if d = 1 then (0 : EReal) else 1) := by
  have h : d = 0 ∨ d = 1 := by
    revert d; decide
  rcases h with rfl | rfl
  · rw [if_neg (by decide)]
    show (((1 : ℕ) : ℝ) : EReal) = 1
    norm_num
  · rw [if_pos rfl]
    show (((0 : ℕ) : ℝ) : EReal) = 0
    norm_num

/-- A fold of `or` over the two stripes from the zero bit is the `or` of the two. -/
theorem fold_or_two (g : Fin 2 → BitVec 1) :
    (Finset.univ : Finset (Fin 2)).fold IntOp.ori (0 : BitVec 1) g = IntOp.ori (g 0) (g 1) := by
  have hu : (Finset.univ : Finset (Fin 2)) = insert (0 : Fin 2) {(1 : Fin 2)} := by decide
  rw [hu, Finset.fold_insert (by decide), Finset.fold_singleton]
  show g 0 ||| (g 1 ||| 0) = g 0 ||| g 1
  simp

/-- The kernel's position word at row `r` of time tile `tt` is the word of the absolute position:
    `r + tt · 2048` computed in wrapping 32-bit arithmetic is the word of the natural `tt · 2048 + r`. -/
theorem pos_word (tt r : Nat) :
    IntOp.addi (BitVec.ofNat 32 r) (Scalar.muli (BitVec.ofNat 32 tt) 2048#32) = BitVec.ofNat 32 (tt * 2048 + r) := by
  show BitVec.ofNat 32 r + BitVec.ofNat 32 tt * 2048#32 = _
  rw [show (2048#32 : BitVec 32) = BitVec.ofNat 32 2048 from rfl, ← BitVec.ofNat_mul, ← BitVec.ofNat_add, Nat.add_comm]

end Cert.DropStripes

end
-- ==== Proof.RefValue.lean ====
/-
  The reference's result is `masked`. Its mask is built on the host from whole arrays: the time positions `0 … 4095`
  as words, each compared with the stripe's start and with its wrapped end, the two stripes joined by an `or`-reduce
  over the stripe axis, complemented, converted to a float and broadcast over the channel and frequency axes. Read at
  one index `(b, 0, t, f)` every broadcast disappears: stripe `s`'s bit is `inStripe b s t`, the reduce over the
  two stripes from the zero bit is their `or`, and the converted complement is `keep`.
-/
import proofs.«414387_j79267916415506_1_alg».proof.Proof.Gen.ReferenceIdeal.Read
import proofs.«414387_j79267916415506_1_alg».proof.Proof.Spec
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.DropStripes

/-- Dropping the stripe axis of `[64, 2, 4096]` leaves `[64, 4096]`. -/
theorem stripeAxis : S64x2x4096.Reduces [1] S64x4096 := by decide

/-- Both table broadcasts read the table at `(b, s)`. -/
theorem tbl_idx (b : Fin 64) (s : Fin 2) (t : Fin 4096) : idx_main_v2 (idx_main_v4 (ix3 b s t)) = ix2 b s :=
  funext fun a => by match a with | ⟨0, _⟩ => rfl | ⟨1, _⟩ => rfl
theorem end_idx (b : Fin 64) (s : Fin 2) (t : Fin 4096) : idx_main_v8 (idx_main_v10 (ix3 b s t)) = ix2 b s :=
  funext fun a => by match a with | ⟨0, _⟩ => rfl | ⟨1, _⟩ => rfl

/-- Stripe `s`'s membership bit at `(b, s, t)`: the position word is `t`'s, the bounds the table entries at `(b, s)`. -/
theorem stripe_apply (bgn dist : IVec S64x2 32) (b : Fin 64) (s : Fin 2) (t : Fin 4096) :
    val_main_v12 (F := Ideal) bgn dist (ix3 b s t) = inStripe bgn dist b s (BitVec.ofNat 32 t.val) := by
  rw [val_main_v12_apply, val_main_v5_apply, val_main_v11_apply, val_main_v3_apply, val_main_v1_apply,
    val_main_v0_apply, val_main_v4_apply, val_main_v2_apply, val_main_v9_apply, val_main_v6_apply, val_main_v0_apply,
    val_main_v10_apply, val_main_v8_apply, val_main_v7_apply, tbl_idx, end_idx]
  rfl

/-- The reduced index `(b, t)` with stripe `k` put back is `(b, k, t)`. -/
theorem lift_stripe (b : Fin 64) (t : Fin 4096) (k : Fin (S64x2x4096.size 1)) :
    stripeAxis.lift (ix2 b t) k = ix3 b (⟨k.val, k.isLt⟩ : Fin 2) t := by
  funext c; apply Fin.ext
  fin_cases c <;> rfl

/-- The `or`-reduce over the stripe axis at `(b, t)` is the drop bit. -/
theorem drop_apply (bgn dist : IVec S64x2 32) (b : Fin 64) (t : Fin 4096) :
    val_main_v13 (F := Ideal) bgn dist (ix2 b t) = dropped bgn dist b (BitVec.ofNat 32 t.val) := by
  unfold val_main_v13
  rw [Host.reduce_eq_fold_single IntOp.ori _ _ reducesTo_S64x2x4096_S64x4096_d1 stripeAxis h_S_ (ix2 b t)]
  have hf : (val_main_v12 (F := Ideal) bgn dist ∘ stripeAxis.lift (ix2 b t))
      = fun k : Fin 2 => inStripe bgn dist b k (BitVec.ofNat 32 t.val) :=
    funext fun k => (congrArg (val_main_v12 (F := Ideal) bgn dist) (lift_stripe b t k)).trans (stripe_apply bgn dist b _ t)
  refine (congrArg (fun f => Finset.fold IntOp.ori (0 : BitVec 1) f (Finset.univ : Finset (Fin 2))) hf).trans ?_
  exact fold_or_two _

/-- The reference's mask at `(b, 0, t, f)` reads the converted complement at `(b, t)`. -/
theorem mask_idx (b : Fin 64) (z : Fin 1) (t : Fin 4096) (f : Fin 256) :
    idx_main_v16 (idx_main_v17 (ix4 b z t f)) = ix2 b t :=
  funext fun a => by match a with | ⟨0, _⟩ => rfl | ⟨1, _⟩ => rfl

/-- THE REFERENCE'S RESULT IS `masked`. -/
theorem result_eq (x : FVec Ideal S64x1x4096x256 .f32) (bgn dist : IVec S64x2 32) :
    val_main_v18 (F := Ideal) x bgn dist = masked x bgn dist := by
  funext j
  obtain ⟨b, z, t, f, rfl⟩ : ∃ (b : Fin 64) (z : Fin 1) (t : Fin 4096) (f : Fin 256), j = ix4 b z t f :=
    ⟨j 0, j 1, j 2, j 3, eq_ix4 j⟩
  rw [val_main_v18_apply, val_main_v17_apply, val_main_v16_apply, val_main_v15_apply, val_main_v14_apply, mask_idx,
    drop_apply]
  show x (ix4 b z t f) * (((~~~(dropped bgn dist b (BitVec.ofNat 32 t.val))).toNat : ℝ) : EReal) = _
  rw [uitofp_not]
  rfl

end Cert.ReferenceIdeal.RefValue

end
-- ==== Proof.KernelBlock.lean ====
/-
  What the kernel body leaves in the output block at one grid point `(b, tt)`.
  The body reads four words of the two stripe tables, all in row `b` (the grid's first coordinate): the starts and
  widths of stripes 0 and 1. It builds the tile's position words — row `r` of the tile is absolute time position
  `tt · 2048 + r`, formed as `r + tt · 2048` in wrapping 32-bit arithmetic, which is the word of that natural
  number — tests each position against the two stripes, and multiplies the loaded tile of `x` by the constant `0`
  where the position is dropped and by `1` elsewhere. One store writes the whole block, so the block is that product
  index by index: entry `(0, r, f)` is the loaded tile's entry times `keep b (tt · 2048 + r)`.
-/
import proofs.«414387_j79267916415506_1_alg».proof.Proof.Gen.KernelIdeal.Frame
import proofs.«414387_j79267916415506_1_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Block

open Cert.KernelIdeal Cert.KernelIdeal.Gen
open Idealize.ShloMosaic Idealize.ShloMosaic.TcCoe Idealize.ShloMosaic.Tactic Idealize.SL.Sem
open Idealize.ShloMosaic.ValueIdx Cert.DropStripes

/-- The body's loads and its one store go through the whole block: offsets all zero. -/
theorem zeroOff : (![0, 0, 0] : Fin 3 → Nat) = fun _ => 0 := by funext a; fin_cases a <;> rfl

/-- A one-word read of a `[64, 2]` table through the unit rectangle at offsets `(b, s)` is the entry `(b, s)`. -/
theorem word_eq (X : S64x2.Idx → Elt Ideal .i32) (off : Fin 2 → Nat) (b : Fin 64) (s : Fin 2)
    (hoff : off 0 = b.val ∧ off 1 = s.val) (inb : ∀ a, off a + S1x1.size a ≤ S64x2.size a) (h1 : 0 < S1x1.numel) :
    View.ld (Val := Elt Ideal) (e' := .i32) X (Rect.unit (s := S64x2) off S1x1.size inb) (Shape.Idx.first h1)
      = X (ix2 b s) := by
  show X _ = X _
  congr 1
  funext a
  apply Fin.ext
  have h0 : ∀ a, (Shape.Idx.first h1 a).val = 0 := fun a => by
    have := (Shape.Idx.first h1 a).isLt
    have e : S1x1.size a = 1 := by fin_cases a <;> rfl
    omega
  match a with
  | ⟨0, _⟩ => show off 0 + 1 * (Shape.Idx.first h1 0).val = b.val; rw [h0, hoff.1]; omega
  | ⟨1, _⟩ => show off 1 + 1 * (Shape.Idx.first h1 1).val = s.val; rw [h0, hoff.2]; omega

/-- The grid's first coordinate, converted to an index and back to a natural, is itself (it is below 64). -/
theorem rowOff (i : grid0.Coords) : (Scalar.indexCast (BitVec.ofNat 32 (i 0).val)).toNat = (i 0).val := by
  have h : (i 0).val < 64 := (i 0).isLt
  show (BitVec.ofNat 32 (i 0).val).toNat = _
  rw [BitVec.toNat_ofNat]
  omega

/-- THE PAYLOAD AT AN INDEX: with the four table words `b0 d0 b1 d1` (starts and widths of the two stripes), entry
    `(u, r, f)` of the stored block is the loaded tile's entry `(0, r, f)` times `0` when position
    `tt · 2048 + r` lies in `[b0, b0 + d0)` or `[b1, b1 + d1)`, times `1` otherwise. -/
theorem pay_apply (i : grid0.Coords) (b0 d0 b1 d1 : BitVec 32) (x : Vec Ideal S1x2048x256 .f32)
    (u : Fin 1) (r : Fin 2048) (f : Fin 256) :
    k0_pay1 (F := Ideal) i b0 d0 b1 d1 x (ix3 u r f)
      = x (ix3 (0 : Fin 1) r f) *
          (if IntOp.ori
                (IntOp.andi (IntOp.cmpi .sge (BitVec.ofNat 32 ((i 1).val * 2048 + r.val)) b0)
                  (IntOp.cmpi .slt (BitVec.ofNat 32 ((i 1).val * 2048 + r.val)) (IntOp.addi b0 d0)))
                (IntOp.andi (IntOp.cmpi .sge (BitVec.ofNat 32 ((i 1).val * 2048 + r.val)) b1)
                  (IntOp.cmpi .slt (BitVec.ofNat 32 ((i 1).val * 2048 + r.val)) (IntOp.addi b1 d1))) = 1
            then (0 : EReal) else 1) := by
  unfold k0_pay1
  refine (shapeCast_ab_1ab_apply _ _ u r f).trans ?_
  have hp : IntOp.addi (iota .tc S2048x256 32 [0] iota_S2048x256_d0_w32 (ix2 r f))
        (Scalar.muli (BitVec.ofNat 32 (i 1).val) 2048#32) = BitVec.ofNat 32 ((i 1).val * 2048 + r.val) := by
    refine Eq.trans ?_ (pos_word (i 1).val r.val)
    show IntOp.addi (BitVec.ofNat 32 (0 * 2048 + r.val)) _ = _
    rw [Nat.zero_mul, Nat.zero_add]
  rw [← hp, ← select_consts]
  exact congrArg (· * _) (shapeCast_1ab_ab_apply x _ r f)

/-- The payload depends on the four table words only through their values. -/
theorem pay_congr (i : grid0.Coords) {w0 w0' w1 w1' w2 w2' w3 w3' : Elt Ideal .i32} (h0 : w0 = w0') (h1 : w1 = w1')
    (h2 : w2 = w2') (h3 : w3 = w3') (x : Vec Ideal S1x2048x256 .f32) (j : S1x2048x256.Idx) :
    k0_pay1 (F := Ideal) i w0 w1 w2 w3 x j = k0_pay1 (F := Ideal) i w0' w1' w2' w3' x j := by
  subst h0 h1 h2 h3; rfl

/-- THE BLOCK THE BODY LEAVES, at an index: on whole staging buffers, with the input tile `x0` and the two tables'
    contents `bgn`, `dist`, the output block's entry `(u, r, f)` at grid point `i = (b, tt)` is
    `x0 (0, r, f) · keep b (tt · 2048 + r)`. The run's one store covers the block, so the block is the store's payload;
    the four words it was computed from are the tables' entries `(b, 0)` and `(b, 1)`. -/
theorem out_apply (c : Dev nD) (i : grid0.Coords) (arg4 : Memref sig .tc .vmem S1x2048x256 .f32) (harg4 : arg4.IsWhole)
    (arg5 : Memref sig .tc .vmem S1x2048x256 .f32) (harg5 : arg5.IsWhole) (x0 : Vec Ideal S1x2048x256 .f32)
    (bgn : TbBuf0 (F := Ideal) c tbM0_0) (dist : TbBuf0 (F := Ideal) c tbM0_1) (u : Fin 1) (r : Fin 2048) (f : Fin 256) :
    out0_A_1 c i arg4 harg4 arg5 harg5 x0 bgn dist (ix3 u r f)
      = x0 (ix3 (0 : Fin 1) r f) * keep bgn dist (i 0) (BitVec.ofNat 32 ((i 1).val * 2048 + r.val)) := by
  unfold out0_A_1
  rw [View.read_writes_eq_canon _ _ _ (cover0_A_1 c i arg4 harg4 arg5 harg5 x0 bgn dist)]
  unfold kernelRun0_A
  dsimp only
  sl_unfold_words
  rw [View.canon_unit_zero zeroOff]
  simp only [View.readAt_eq_ld, harg4.read_unread, View.ld_unit_zero (S := S1x2048x256) zeroOff, View.read_whole]
  refine Eq.trans (pay_congr i ?_ ?_ ?_ ?_ x0 (ix3 u r f))
    (pay_apply i (bgn (ix2 (i 0) 0)) (dist (ix2 (i 0) 0)) (bgn (ix2 (i 0) 1)) (dist (ix2 (i 0) 1)) x0 u r f)
  · exact word_eq bgn (k0_off1 i) (i 0) 0 ⟨rowOff i, rfl⟩ _ _
  · exact word_eq dist (k0_off1 i) (i 0) 0 ⟨rowOff i, rfl⟩ _ _
  · exact word_eq bgn (k0_off2 i) (i 0) 1 ⟨rowOff i, rfl⟩ _ _
  · exact word_eq dist (k0_off2 i) (i 0) 1 ⟨rowOff i, rfl⟩ _ _

end Cert.KernelIdeal.Block

end
-- ==== Proof.Flat.lean ====
/-
  The kernel works on `x` with the unit channel axis removed: the host reshapes `[64, 1, 4096, 256]` to
  `[64, 4096, 256]` before the call and back after it. Entry `(b, t, f)` of the flat array is entry `(b, 0, t, f)` of
  the original (same row-major position), so masking the flat array by `keep (b, t)` and reshaping back is `masked`.
-/
import proofs.«414387_j79267916415506_1_alg».proof.Proof.Spec
import Idealize.ShloMosaic.Lib.Pipeline.Value
import Idealize.ShloMosaic.Lib.ValueIdx

noncomputable section

namespace Cert.DropStripes

open Idealize.ShloMosaic Idealize.ShloMosaic.ValueIdx

/-- The data array without its channel axis: `[batch, time, frequency]`. -/
abbrev SF : Shape := ⟨3, ![64, 4096, 256]⟩

/-- Removing the unit channel axis: flat entry `(b, t, f)` is entry `(b, 0, t, f)`. -/
theorem flatten_apply {α : Type} (x : SX.Idx → α) (h : SX.ShapeCasts SF) (b : Fin 64) (t : Fin 4096) (f : Fin 256) :
    shapeCast SF x h (ix3 b t f) = x (ix4 b (0 : Fin 1) t f) :=
  shapeCast_apply x h _ _ (by
    rw [Shape.rowMajor_val_four, Shape.rowMajor_val_three]
    show ((b.val * 1 + 0) * 4096 + t.val) * 256 + f.val = (b.val * 4096 + t.val) * 256 + f.val
    omega)

/-- Putting it back: entry `(b, z, t, f)` is flat entry `(b, t, f)`. -/
theorem unflatten_apply {α : Type} (y : SF.Idx → α) (h : SF.ShapeCasts SX) (b : Fin 64) (z : Fin 1) (t : Fin 4096)
    (f : Fin 256) : shapeCast SX y h (ix4 b z t f) = y (ix3 b t f) :=
  shapeCast_apply y h _ _ (by
    have hz : z.val = 0 := by omega
    rw [Shape.rowMajor_val_four, Shape.rowMajor_val_three]
    show (b.val * 4096 + t.val) * 256 + f.val = ((b.val * 1 + z.val) * 4096 + t.val) * 256 + f.val
    rw [hz]; omega)

/-- The kernel's result array, over the flat shape: flat `x` times `keep (b, t)`. -/
def maskedFlat (x3 : FVec Ideal SF .f32) (bgn dist : IVec ST 32) : FVec Ideal SF .f32 :=
  fun j => x3 j * keep bgn dist (j 0) (BitVec.ofNat 32 (j 1).val)

/-- Flatten, mask, unflatten is `masked`. -/
theorem unflatten_maskedFlat (x : FVec Ideal SX .f32) (bgn dist : IVec ST 32) (h : SX.ShapeCasts SF)
    (h' : SF.ShapeCasts SX) : shapeCast SX (maskedFlat (shapeCast SF x h) bgn dist) h' = masked x bgn dist := by
  funext j
  obtain ⟨b, z, t, f, rfl⟩ : ∃ (b : Fin 64) (z : Fin 1) (t : Fin 4096) (f : Fin 256), j = ix4 b z t f :=
    ⟨j 0, j 1, j 2, j 3, eq_ix4 j⟩
  rw [unflatten_apply]
  show shapeCast SF x h (ix3 b t f) * _ = x (ix4 b z t f) * _
  rw [flatten_apply]
  have hz : z = 0 := Fin.ext (by omega)
  rw [hz]

end Cert.DropStripes

end
-- ==== Proof.KernelArray.lean ====
/-
  From the kernel's blocks to its result array.
  The grid has 64 × 2 points `(b, tt)`: batch row `b`, time tile `tt` of 2048 rows. Both the input window and the
  output window sit at block index `(b, tt, 0)` of the flat `[64, 4096, 256]` arrays, whatever the stripe tables hold
  (the index maps ignore them), so the pipeline's side condition on the tables is vacuous and entry `(u, r, f)` of point
  `t`'s block is flat entry `(b, tt · 2048 + r, f)`. What the body leaves in the output block there is the flat input
  entry times `keep b (tt · 2048 + r)`: the masked flat array read through the block. The output blocks tile the flat
  array — flat index `(b, p, f)` lies in the block of point `(b, p / 2048)` — so after the region the flat result IS the
  masked flat array; the host's reshape before the region supplies flat `x`, the one after it restores the channel
  axis, and the result buffer ends at `masked` of the three launch arguments, which themselves end unchanged.
-/
import proofs.«414387_j79267916415506_1_alg».proof.Proof.Gen.KernelIdeal.Frame
import proofs.«414387_j79267916415506_1_alg».proof.Proof.KernelBlock
import proofs.«414387_j79267916415506_1_alg».proof.Proof.Flat
import Idealize.ShloMosaic.Lib.Pipeline.Value
import Idealize.ShloMosaic.Lib.StableHlo.Run

set_option maxRecDepth 16384

noncomputable section
namespace Cert.KernelIdeal.Arr
open Cert.KernelIdeal Cert.KernelIdeal.Gen Cert.KernelIdeal.Block
open Idealize.ShloMosaic Idealize.ShloMosaic.TcCoe Idealize.ShloMosaic.Tactic Idealize.SL.Sem
open Idealize.ShloMosaic.ValueIdx Cert.DropStripes
open Idealize.ShloMosaic.Pipeline (Dat)

variable (m : (ℓ : Loc nD τ sig) → Buf (Elt Ideal) ℓ) (ρ : Dev nD → PrngReg)

/-- The side condition on the tables' contents holds for every contents: no index map reads a table. -/
theorem ok : Ok m := by show ok0 _; unfold ok0; trivial

/-- The two index maps at grid point `i = (b, tt)`: block index `(b, tt, 0)` (the coordinates are small, so their
    32-bit words read back as themselves). -/
theorem idx_facts (i : grid0.Coords) : cc0_transform_1 i 0 = (i 0).val ∧ cc0_transform_1 i 1 = (i 1).val ∧ cc0_transform_1 i 2 = 0
    ∧ cc0_transform_0 i 0 = (i 0).val ∧ cc0_transform_0 i 1 = (i 1).val ∧ cc0_transform_0 i 2 = 0 := by
  have h0 : (i 0).val < 64 := (i 0).isLt
  have h1 : (i 1).val < 2 := (i 1).isLt
  refine ⟨?_, ?_, rfl, ?_, ?_, rfl⟩ <;> (show (BitVec.ofNat 32 _).toNat = _; rw [BitVec.toNat_ofNat]; omega)

/-- The flat data array the region finds is the host's reshape of the launch's `x`. -/
theorem V_v0 (c : Dev nD) : (V m c main_v0 : S64x4096x256.Idx → EReal)
    = shapeCast S64x4096x256 (m ((c : Thread nD τ).loc main_arg0)) shapeCasts_S64x1x4096x256_S64x4096x256 := by
  show StableHlo.after hostOps0 (fun b => m (c, b)) (Proc.devRef .tc main_v0) = _
  after_results
  rfl

/-- The tables the region runs at are the launch's two integer arguments. -/
theorem tbl0_eq : (tbl m 0 : S64x2.Idx → BitVec 32) = V m (0 : Dev nD) main_arg1 := rfl
theorem tbl1_eq : (tbl m 1 : S64x2.Idx → BitVec 32) = V m (0 : Dev nD) main_arg2 := rfl

/-- Where point `t`'s blocks sit in the flat arrays: batch row `b`, time rows `tt · 2048 …`, all frequencies — the
    same for the input window and the output window. -/
theorem emb_in (t : Fin (cfgM m (ok m)).N) (u : Fin 1) (r : Fin 2048) (f : Fin 256) :
    (((cfgM m (ok m)).win 0).blk t).view.emb (ix3 u r f)
      = ix3 (grid0.coords t 0) (⟨(grid0.coords t 1).val * 2048 + r.val, by
          have h1 : (grid0.coords t 1).val < 2 := (grid0.coords t 1).isLt
          omega⟩ : Fin 4096) f := by
  obtain ⟨e0, e1, e2, e3, e4, e5⟩ := idx_facts (grid0.coords t)
  have hu : u.val = 0 := by omega
  funext a; apply Fin.ext
  match a with
  | ⟨0, _⟩ => show cc0_transform_0 (grid0.coords t) 0 * 1 + 1 * u.val = (grid0.coords t 0).val; omega
  | ⟨1, _⟩ => show cc0_transform_0 (grid0.coords t) 1 * 2048 + 1 * r.val = (grid0.coords t 1).val * 2048 + r.val; omega
  | ⟨2, _⟩ => show cc0_transform_0 (grid0.coords t) 2 * 256 + 1 * f.val = f.val; omega

/-- The same for the output window. -/
theorem emb_out (t : Fin (cfgM m (ok m)).N) (u : Fin 1) (r : Fin 2048) (f : Fin 256) :
    (((cfgM m (ok m)).win 1).blk t).view.emb (ix3 u r f)
      = ix3 (grid0.coords t 0) (⟨(grid0.coords t 1).val * 2048 + r.val, by
          have h1 : (grid0.coords t 1).val < 2 := (grid0.coords t 1).isLt
          omega⟩ : Fin 4096) f := by
  obtain ⟨e0, e1, e2, e3, e4, e5⟩ := idx_facts (grid0.coords t)
  have hu : u.val = 0 := by omega
  funext a; apply Fin.ext
  match a with
  | ⟨0, _⟩ => show cc0_transform_1 (grid0.coords t) 0 * 1 + 1 * u.val = (grid0.coords t 0).val; omega
  | ⟨1, _⟩ => show cc0_transform_1 (grid0.coords t) 1 * 2048 + 1 * r.val = (grid0.coords t 1).val * 2048 + r.val; omega
  | ⟨2, _⟩ => show cc0_transform_1 (grid0.coords t) 2 * 256 + 1 * f.val = f.val; omega

/-- The flat data array and the two tables as the region finds them, at their literal types. -/
abbrev xflat (c : Dev nD) : FVec Ideal S64x4096x256 .f32 := V m c main_v0
abbrev bgnT (c : Dev nD) : IVec S64x2 32 := V m c main_arg1
abbrev distT (c : Dev nD) : IVec S64x2 32 := V m c main_arg2

/-- Every index of a block is its three coordinates. -/
theorem exists_ix3 (y : S1x2048x256.Idx) : ∃ (u : Fin 1) (r : Fin 2048) (f : Fin 256), y = ix3 u r f :=
  ⟨y 0, y 1, y 2, eq_ix3 y⟩

/-- WHAT POINT `t` LEAVES, at an index of its block: the masked flat array at the index the block puts it. -/
theorem point_eq (c : Dev nD) (t : Fin (cfgM m (ok m)).N) (u : Fin 1) (r : Fin 2048) (f : Fin 256) :
    outsAt0 m (ok m) c t (ix3 u r f)
      = maskedFlat (xflat m c) (bgnT m c) (distT m c)
          ((((cfgM m (ok m)).win 1).blk t).view.emb (ix3 u r f)) := by
  obtain rfl : c = 0 := Subsingleton.elim _ _
  have hx : iblk m (ok m) 0 0 t (ix3 (0 : Fin 1) r f)
      = xflat m 0 ((((cfgM m (ok m)).win 0).blk t).view.emb (ix3 (0 : Fin 1) r f)) := rfl
  rw [emb_in] at hx
  unfold outsAt0
  refine (out_apply 0 (grid0.coords t) _ _ _ _ (iblk m (ok m) 0 0 t) (tbl m 0) (tbl m 1) u r f).trans ?_
  rw [emb_out]
  exact congrArg (fun v : EReal => v * keep (tbl m 0) (tbl m 1) (grid0.coords t 0)
    (BitVec.ofNat 32 ((grid0.coords t 1).val * 2048 + r.val))) hx

/-- WHAT POINT `t` WRITES BACK is block `t` of the masked flat array. -/
theorem flushed_eq (c : Dev nD) (t : Fin (cfgM m (ok m)).N) :
    (dats m (ok m) 0 c).flushed 1 t = (((cfgM m (ok m)).win 1).blk t).view.read (Elt Ideal)
      (maskedFlat (xflat m c) (bgnT m c) (distT m c)) := by
  show ((cfgM m (ok m)).win 1).cut (grid0.coords t) ((dats m (ok m) 0 c).after 1 t) = _
  rw [after0_1]
  funext y
  obtain ⟨u, r, f, rfl⟩ := exists_ix3 y
  exact point_eq m c t u r f

/-- The grid point with coordinates `(b, tt)`: the grid runs row-major, the time-tile axis fastest. -/
theorem point_at (b : Fin 64) (tt : Fin 2) :
    ∃ t : Fin grid0.N, (grid0.coords t 0).val = b.val ∧ (grid0.coords t 1).val = tt.val := by
  have s0 : grid0.stride 0 = 2 := by decide
  have s1 : grid0.stride 1 = 1 := by decide
  have hb : b.val < 64 := b.isLt
  have ht : tt.val < 2 := tt.isLt
  refine ⟨⟨b.val * 2 + tt.val, by rw [N_0]; omega⟩, ?_, ?_⟩
  · show (b.val * 2 + tt.val) / grid0.stride 0 % 64 = b.val
    rw [s0]; omega
  · show (b.val * 2 + tt.val) / grid0.stride 1 % 2 = tt.val
    rw [s1]; omega

/-- An index of the flat array is in point `t`'s output block iff each coordinate is in the block's range. -/
theorem mem_blk (t : Fin (cfgM m (ok m)).N) (i : S64x4096x256.Idx) :
    i ∈ (((cfgM m (ok m)).win 1).blk t).view.set ↔ ∀ a : Fin 3,
      cc0_transform_1 (grid0.coords t) a * S1x2048x256.size a ≤ (i a).val
        ∧ (i a).val < cc0_transform_1 (grid0.coords t) a * S1x2048x256.size a + S1x2048x256.size a := by
  show i ∈ ((View.whole main_v1).slice ((win0 (adm m (ok m)) 1).rect t)).set ↔ _
  rw [View.set_slice_whole, Rect.mem_set_unit]
  exact Iff.rfl

/-- The output blocks tile the flat array: `(b, p, f)` is in the block of the point `(b, p / 2048)`. -/
theorem cover (i : S64x4096x256.Idx) : ∃ t : Fin (cfgM m (ok m)).N,
    ((cfgM m (ok m)).win 1).flush t = true ∧ i ∈ (((cfgM m (ok m)).win 1).blk t).view.set := by
  have hi0 : (i 0).val < 64 := (i 0).isLt
  have hi1 : (i 1).val < 4096 := (i 1).isLt
  have hi2 : (i 2).val < 256 := (i 2).isLt
  obtain ⟨t, h0, h1⟩ := point_at (i 0) ⟨(i 1).val / 2048, by omega⟩
  have h1' : (grid0.coords t 1).val = (i 1).val / 2048 := h1
  obtain ⟨e0, e1, e2, -, -, -⟩ := idx_facts (grid0.coords t)
  refine ⟨t, flush0_1 (adm m (ok m)) t, ?_⟩
  rw [mem_blk]
  intro a
  match a with
  | ⟨0, _⟩ =>
    show cc0_transform_1 (grid0.coords t) 0 * 1 ≤ (i 0).val ∧ (i 0).val < cc0_transform_1 (grid0.coords t) 0 * 1 + 1
    omega
  | ⟨1, _⟩ =>
    show cc0_transform_1 (grid0.coords t) 1 * 2048 ≤ (i 1).val
      ∧ (i 1).val < cc0_transform_1 (grid0.coords t) 1 * 2048 + 2048
    omega
  | ⟨2, _⟩ =>
    show cc0_transform_1 (grid0.coords t) 2 * 256 ≤ (i 2).val ∧ (i 2).val < cc0_transform_1 (grid0.coords t) 2 * 256 + 256
    omega

/-- THE FLAT RESULT ARRAY after the region is the masked flat array. -/
theorem final (c : Dev nD) :
    (dats m (ok m) 0 c).arrAt 1 (cfgM m (ok m)).N = maskedFlat (xflat m c) (bgnT m c) (distT m c) :=
  (dats m (ok m) 0 c).arrAt_eq_of_cover 1 _ (fun t _ => flushed_eq m c t) (cover m)

/-- The result buffer after the host's closing reshape: the masked flat array with the channel axis restored. -/
theorem tail_eq (c : Dev nD) :
    Pipeline.afterTail pcfgs (fun _ => adm m (ok m)) (dats m (ok m)) 0 (V0 m) [hostOps1] c main_v2
      = shapeCast S64x1x4096x256 (maskedFlat (xflat m c) (bgnT m c) (distT m c))
          shapeCasts_S64x4096x256_S64x1x4096x256 := by
  unfold Pipeline.afterTail
  show StableHlo.after hostOps1 _ (Proc.devRef .tc main_v2) = _
  after_results
  have hw : Pipeline.withArrays (Pipeline.pin pcfgs (fun _ => adm m (ok m)) 0).spec c (V0 m c)
      (fun w => (dats m (ok m) 0 c).arrAt w (Pipeline.pin pcfgs (fun _ => adm m (ok m)) 0).N) (Proc.devRef .tc main_v1)
      = maskedFlat (xflat m c) (bgnT m c) (distT m c) :=
    (Pipeline.withArrays_arr spec0 winFacts0.arr_inj c _ _ 1).trans (final m c)
  rw [hw]
  rfl

/-- THE KERNEL'S RUN with its result named: the result buffer ends at `masked` of the launch's arguments, which end
    unchanged. -/
theorem run : θ_run defs (onTc (τ := τ) (main (F := Ideal))) ⟨m, fun _ => 0, ρ⟩ fun r => ∀ c : Dev nD,
      r.2.mem ((c.tc : Thread nD τ).loc main_v2)
        = masked (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, ?_, ?_⟩) (run_main m ρ (ok m))
  · refine ((h c).2 main_v2 (by decide : main_v2 ∈ Pipeline.restRefs sig spec0)).trans ?_
    rw [tail_eq]
    show shapeCast S64x1x4096x256 (maskedFlat (V m c main_v0) (V m c main_arg1) (V m c main_arg2)) _ = _
    rw [V_v0, V_main_arg1, V_main_arg2]
    exact unflatten_maskedFlat _ _ _ _ _
  · exact ((h c).2 main_arg0 (by decide : main_arg0 ∈ Pipeline.restRefs sig spec0)).trans (W_main_arg0 m (ok m) (dats m (ok m)) c)
  · exact ((h c).2 main_arg1 (by decide : main_arg1 ∈ Pipeline.restRefs sig spec0)).trans (W_main_arg1 m (ok m) (dats m (ok m)) c)
  · exact ((h c).2 main_arg2 (by decide : main_arg2 ∈ Pipeline.restRefs sig spec0)).trans (W_main_arg2 m (ok m) (dats m (ok m)) c)

end Cert.KernelIdeal.Arr
end
-- ==== Proof.lean ====
/-
  Time-stripe masking: the kernel and its reference compute the same array over the extended reals.

  Both multiply `x : f32[64, 1, 4096, 256]` by a factor that depends on the batch row `b` and the time position `t`
  only: `0` when `t` lies in one of the row's two stripes `[bgn b s, bgn b s + dist b s)` (signed 32-bit words, the
  end formed by the wrapping sum on both sides), `1` otherwise (`Spec.lean`: `masked`).
  • The reference builds the factor from whole arrays on the host: an iota of positions compared with the broadcast
    bounds, an `or`-reduce over the stripe axis, a complement, a conversion to float (`RefValue.lean`).
  • The kernel walks a 64 × 2 grid over the flat `[64, 4096, 256]` array; at point `(b, tt)` it reads the row's four
    table words, forms the tile's positions `tt · 2048 + r`, and stores the tile times a select between the constants
    `0.0` and `1.0` (`KernelBlock.lean`); the blocks tile the array, and the host's two reshapes drop and restore the
    unit channel axis (`Flat.lean`, `KernelArray.lean`).
  The two sides form the SAME product `x · keep`, so no law of the extended reals that needs finiteness is used: the
  precondition is never opened. The kernel's index maps do not read the stripe tables, so the pipeline's side condition
  on the tables holds for every contents, at both instances. The idealization rewrote nothing, so `preserves` is `True`.
-/
import proofs.«414387_j79267916415506_1_alg».proof.Defs
import proofs.«414387_j79267916415506_1_alg».proof.Proof.Gen.Kernel
import proofs.«414387_j79267916415506_1_alg».proof.Proof.Gen.Kernel.Skeleton
import proofs.«414387_j79267916415506_1_alg».proof.Proof.Gen.Kernel.Launch
import proofs.«414387_j79267916415506_1_alg».proof.Proof.Gen.Kernel.Points
import proofs.«414387_j79267916415506_1_alg».proof.Proof.Gen.Kernel.Frame
import proofs.«414387_j79267916415506_1_alg».proof.Proof.Gen.KernelIdeal
import proofs.«414387_j79267916415506_1_alg».proof.Proof.Gen.KernelIdeal.Skeleton
import proofs.«414387_j79267916415506_1_alg».proof.Proof.Gen.KernelIdeal.Launch
import proofs.«414387_j79267916415506_1_alg».proof.Proof.Gen.KernelIdeal.Points
import proofs.«414387_j79267916415506_1_alg».proof.Proof.Gen.KernelIdeal.Frame
import proofs.«414387_j79267916415506_1_alg».proof.Proof.Gen.ReferenceIdeal
import proofs.«414387_j79267916415506_1_alg».proof.Proof.Gen.Pre_finite_inputs
import proofs.«414387_j79267916415506_1_alg».proof.Proof.Gen.ReferenceIdeal.Run
import proofs.«414387_j79267916415506_1_alg».proof.Proof.Gen.ReferenceIdeal.Read
import proofs.«414387_j79267916415506_1_alg».proof.Proof.RefValue
import proofs.«414387_j79267916415506_1_alg».proof.Proof.KernelArray
import Idealize.ShloMosaic.Adequacy
import Idealize.ShloMosaic.Init

noncomputable section

namespace Cert.Proof

open Idealize.ShloMosaic Idealize.SL.Sem

/-- At the word-level instance too, the side condition on the tables' contents is vacuous. -/
theorem okBits (m : (ℓ : Loc Cert.Kernel.nD Cert.Kernel.τ Cert.Kernel.sig) → Buf (Elt Bits) ℓ) :
    Cert.Kernel.Gen.Ok m := by
  show Cert.Kernel.ok0 _
  unfold Cert.Kernel.ok0
  trivial

/-- The two idealized programs, from memories that agree on the arguments, end with the same result: `masked` of the
    arguments — the kernel by its run read off block by block, the reference by its run read index by index. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ (okBits m),
    fun m ρ _ => Cert.KernelIdeal.Gen.frame m ρ (Cert.KernelIdeal.Arr.ok m),
    fun m ρ _ => (θ_run Cert.ReferenceIdeal.defs _ _).mono (fun _ h c => (h c).2)
      (Cert.ReferenceIdeal.Value.run (F := Ideal) m ρ),
    trivial,
    algebraic⟩

end Cert.Proof

end
